-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S2x1x128 : S_.BroadcastsInDim S2x1x128 (![] : Fin 0 → Fin S2x1x128.rank)
  reducesTo_S2x1x128_S_d0_1_2 : S2x1x128.ReducesTo [0, 1, 2] S_
  bcast_S_S384x512 : S_.BroadcastsInDim S384x512 (![] : Fin 0 → Fin S384x512.rank)
  reducesTo_S384x512_S_d0_1 : S384x512.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_arg5 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S1x512 .f32) (main_arg1 : FVec F S2x1x128 .f32) (main_arg2 : FVec F S384x512 .f32) (main_arg3 : FVec F S384x128 .f32) (main_arg4 : FVec F S384 .f32) (main_arg5 : FVec F S384 .f32) : IVec S_ 1 :=
  let main_v0 : FVec F S1x512 .f32 := Host.absf main_arg0
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S2x1x128 .f32 := Host.absf main_arg1
  let main_cst_0 : FVec F S_ .f32 := constant S_ .f32 0x7F800000#32
  let main_v5 : FVec F S2x1x128 .f32 := broadcastInDim S2x1x128 ![] bcast_S_S2x1x128 main_cst_0
  let main_v6 : IVec S2x1x128 1 := cmpf .olt main_v4 main_v5
  let main_c_1 : IVec S_ 1 := constantI S_ 1 1#1
  let main_v7 : IVec S_ 1 := (fun x v => Host.reduce IntOp.andi x v reducesTo_S2x1x128_S_d0_1_2 h_S_) main_v6 main_c_1
  let main_v8 : IVec S_ 1 := andi main_v3 main_v7
  let main_v9 : FVec F S384x512 .f32 := Host.absf main_arg2
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_v13 main_v16
-- ==== Kernel.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S1x1x128 : Shape := ⟨3, ![1, 1, 128]⟩
abbrev S1x128 : Shape := ⟨2, ![1, 128]⟩
abbrev S1x384 : Shape := ⟨2, ![1, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S2x1x128, .f32⟩
  | .hbm, ⟨2, _⟩ => ⟨S384x512, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S1x1x128, .f32⟩
  | .hbm, ⟨7, _⟩ => ⟨S1x128, .f32⟩
  | .hbm, ⟨8, _⟩ => ⟨S1x384, .f32⟩
  | .hbm, ⟨9, _⟩ => ⟨S1x384, .f32⟩
  | .hbm, ⟨10, _⟩ => ⟨S1x128, .f32⟩
  | .local _ .vmem, ⟨0, _⟩ => ⟨S1x512, .f32⟩
  | .local _ .vmem, ⟨1, _⟩ => ⟨S1x128, .f32⟩
  | .local _ .vmem, ⟨2, _⟩ => ⟨S384x512, .f32⟩
  | .local _ .vmem, ⟨3, _⟩ => ⟨S384x128, .f32⟩
  | .local _ .vmem, ⟨4, _⟩ => ⟨S1x384, .f32⟩
  | .local _ .vmem, ⟨5, _⟩ => ⟨S1x384, .f32⟩
  | .local _ .vmem, ⟨6, _⟩ => ⟨S1x128, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S2x1x128_S1x1x128_0_0_0 : S2x1x128.Slices ![0, 0, 0] S1x1x128
  shapeCasts_S1x1x128_S1x128 : S1x1x128.ShapeCasts S1x128
  shapeCasts_S384_S1x384 : S384.ShapeCasts S1x384
  inb_S1x512_S1x512_0_0 : ∀ a, (![0, 0] : Fin 2 → Nat) a + S1x512.size a ≤ S1x512.size a
  h_S1x512 : 0 < S1x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S384x512_S384x512_0_0 : ∀ a, (![0, 0] : Fin 2 → Nat) a + S384x512.size a ≤ S384x512.size a
  h_S384x512 : 0 < S384x512.numel
  inb_S384x128_S384x128_0_0 : ∀ a, (![0, 0] : Fin 2 → Nat) a + S384x128.size a ≤ S384x128.size a
  h_S384x128 : 0 < S384x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  slices_S1x384_o0_0_S1x128 : S1x384.Slices ![0, 0] S1x128
  slices_S1x384_o0_128_S1x128 : S1x384.Slices ![0, 128] S1x128
  slices_S1x384_o0_256_S1x128 : S1x384.Slices ![0, 256] S1x128
  dot_S1x512_S384x512_S1x384_1_1_0_0_n_n_wf : DotDims.WF S1x512 S384x512 S1x384 [1] [1] [0] [0] [] []
  dot_S1x128_S384x128_S1x384_1_1_0_0_n_n_wf : DotDims.WF S1x128 S384x128 S1x384 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x512.size a ≤ S384x512.size a
  hwx0_2 : ∀ i : grid0.Coords, EltTy.bits .f32 = 32 ∨ (Rect.block (s := S384x512) S384x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

def dot_S1x512_S384x512_S1x384_1_1_0_0_n_n : DotDims S1x512 S384x512 S1x384 where
  lhsContracting := [1]
  rhsContracting := [1]
  lhsNonContracting := [0]
  rhsNonContracting := [0]
  lhsBatch := []
  rhsBatch := []
  wf := dot_S1x512_S384x512_S1x384_1_1_0_0_n_n_wf
def dot_S1x128_S384x128_S1x384_1_1_0_0_n_n : DotDims S1x128 S384x128 S1x384 where
  lhsContracting := [1]
  rhsContracting := [1]
  lhsNonContracting := [0]
  rhsNonContracting := [0]
  lhsBatch := []
  rhsBatch := []
  wf := dot_S1x128_S384x128_S1x384_1_1_0_0_n_n_wf

abbrev win0_0 : Pipeline.Window sig grid0 :=
  Pipeline.Window.ofSpec (Memref.whole main_arg0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x512 : Shape := ⟨2, ![1, 512]⟩
abbrev S2x1x128 : Shape := ⟨3, ![2, 1, 128]⟩
abbrev S384x512 : Shape := ⟨2, ![384, 512]⟩
abbrev S384x128 : Shape := ⟨2, ![384, 128]⟩
abbrev S384 : Shape := ⟨1, ![384]⟩
abbrev S1x1x128 : Shape := ⟨3, ![1, 1, 128]⟩
abbrev S1x128 : Shape := ⟨2, ![1, 128]⟩
abbrev S512x384 : Shape := ⟨2, ![512, 384]⟩
abbrev S1x384 : Shape := ⟨2, ![1, 384]⟩
abbrev S128x384 : Shape := ⟨2, ![128, 384]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S2x1x128, .f32⟩
  | .hbm, ⟨2, _⟩ => ⟨S384x512, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S1x1x128, .f32⟩
  | .hbm, ⟨7, _⟩ => ⟨S1x128, .f32⟩
  | .hbm, ⟨8, _⟩ => ⟨S512x384, .f32⟩
  | .hbm, ⟨9, _⟩ => ⟨S1x384, .f32⟩
  | .hbm, ⟨10, _⟩ => ⟨S1x384, .f32⟩
  | .hbm, ⟨11, _⟩ => ⟨S1x384, .f32⟩
  | .hbm, ⟨12, _⟩ => ⟨S128x384, .f32⟩
  | .hbm, ⟨13, _⟩ => ⟨S1x384, .f32⟩
  | .hbm, ⟨14, _⟩ => ⟨S1x384, .f32⟩
  | .hbm, ⟨15, _⟩ => ⟨S1x384, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  slices_S2x1x128_S1x1x128_0_0_0 : S2x1x128.Slices ![0, 0, 0] S1x1x128
  shapeCasts_S1x1x128_S1x128 : S1x1x128.ShapeCasts S1x128
  transposes_S384x512_S512x384_1_0 : S384x512.Transposes [1, 0] S512x384
  bcast_S384_S1x384_1 : S384.BroadcastsInDim S1x384 (![1] : Fin 1 → Fin S1x384.rank)
  transposes_S384x128_S128x384_1_0 : S384x128.Transposes [1, 0] S128x384
  slices_S1x384_S1x128_0_0 : S1x384.Slices ![0, 0] S1x128
  slices_S1x384_S1x128_0_128 : S1x384.Slices ![0, 128] S1x128
  slices_S1x384_S1x128_0_256 : S1x384.Slices ![0, 256] S1x128
  bcast_S_S1x128 : S_.BroadcastsInDim S1x128 (![] : Fin 0 → Fin S1x128.rank)
  dot_S1x512_S512x384_S1x384_1_0_0_1_n_n_wf : DotDims.WF S1x512 S512x384 S1x384 [1] [0] [0] [1] [] []
  dot_S1x128_S128x384_S1x384_1_0_0_1_n_n_wf : DotDims.WF S1x128 S128x384 S1x384 [1] [0] [0] [1] [] []

variable [Facts₀]

def dot_S1x512_S512x384_S1x384_1_0_0_1_n_n : DotDims S1x512 S512x384 S1x384 where
  lhsContracting := [1]
  rhsContracting := [0]
  lhsNonContracting := [0]
  rhsNonContracting := [1]
  lhsBatch := []
  rhsBatch := []
  wf := dot_S1x512_S512x384_S1x384_1_0_0_1_n_n_wf
def dot_S1x128_S128x384_S1x384_1_0_0_1_n_n : DotDims S1x128 S128x384 S1x384 where
  lhsContracting := [1]
  rhsContracting := [0]
  lhsNonContracting := [0]
  rhsNonContracting := [1]
  lhsBatch := []
  rhsBatch := []
  wf := dot_S1x128_S128x384_S1x384_1_0_0_1_n_n_wf

class Facts : Prop extends Facts₀ where

variable [Facts]
-- ==== Proof.GruCell.lean ====
/-
  One step of a GRU cell on the extended reals, as a function of the six argument arrays, index by index.

  With x : [1,512] the input row, h = h0[0] : [1,128] the hidden state of the forward direction, W_ih : [384,512],
  W_hh : [384,128] and the two biases b_ih, b_hh : [384]:

    gx j = Σ_k x[0,k] · W_ih[j,k] + b_ih[j]        gh j = Σ_k h[k] · W_hh[j,k] + b_hh[j]        (j < 384)

  and, the 384 pre-activations cut into three thirds of 128 (reset, update, candidate), for q < 128

    r = σ (gx q + gh q),   z = σ (gx (128+q) + gh (128+q)),   n = tanh (gx (256+q) + r · gh (256+q)),
    out q = (1 − z) · n + z · h[q],

  σ the logistic function 1 / (1 + e^(−t)). Nothing here needs the entries to be finite: no law of the
  extended reals beyond the definitions is used anywhere in this certificate.
-/
import Idealize.ShloMosaic.PureOps.Ideal
import Idealize.ShloMosaic.Lib.ValueIdx

noncomputable section

namespace Cert.GruCell

open Idealize.ShloMosaic Idealize.ShloMosaic.ValueIdx

/-- The input side's 384 pre-activations as a [1,384] array: row `j 1` of `W_ih` against the input row, plus the bias. -/
def gatesX (x : FVec Ideal ⟨2, ![1, 512]⟩ .f32) (wih : FVec Ideal ⟨2, ![384, 512]⟩ .f32) (bih : FVec Ideal ⟨1, ![384]⟩ .f32) :
    FVec Ideal ⟨2, ![1, 384]⟩ .f32 :=
  fun j => (∑ k : Fin 512, x (ix2 (j 0) k) * wih (ix2 (j 1) k)) + bih (ix1 (j 1))

/-- The hidden side's 384 pre-activations: row `j 1` of `W_hh` against the forward direction's state `h0[0]`, plus the bias. -/
def gatesH (h0 : FVec Ideal ⟨3, ![2, 1, 128]⟩ .f32) (whh : FVec Ideal ⟨2, ![384, 128]⟩ .f32) (bhh : FVec Ideal ⟨1, ![384]⟩ .f32) :
    FVec Ideal ⟨2, ![1, 384]⟩ .f32 :=
  fun j => (∑ k : Fin 128, h0 (ix3 0 0 k) * whh (ix2 (j 1) k)) + bhh (ix1 (j 1))

/-- Column `o + q` of a [1,384] array for column `q` of a [1,128] one: the third that starts at `o` (0, 128 or 256). -/
abbrev third (o : Nat) (ho : o + 128 ≤ 384) (i : (⟨2, ![1, 128]⟩ : Shape).Idx) : (⟨2, ![1, 384]⟩ : Shape).Idx :=
  ix2 (i 0) ⟨o + (i 1).val, by have := idx2_lt1 i; omega⟩

/-- The new hidden state. -/
def cell (x : FVec Ideal ⟨2, ![1, 512]⟩ .f32) (h0 : FVec Ideal ⟨3, ![2, 1, 128]⟩ .f32) (wih : FVec Ideal ⟨2, ![384, 512]⟩ .f32)
    (whh : FVec Ideal ⟨2, ![384, 128]⟩ .f32) (bih bhh : FVec Ideal ⟨1, ![384]⟩ .f32) : FVec Ideal ⟨2, ![1, 128]⟩ .f32 :=
  fun i =>
    (1 - Ideal.logistic (gatesX x wih bih (third 128 (by decide) i) + gatesH h0 whh bhh (third 128 (by decide) i)))
        * Ideal.tanh (gatesX x wih bih (third 256 (by decide) i)
            + Ideal.logistic (gatesX x wih bih (third 0 (by decide) i) + gatesH h0 whh bhh (third 0 (by decide) i))
              * gatesH h0 whh bhh (third 256 (by decide) i))
      + Ideal.logistic (gatesX x wih bih (third 128 (by decide) i) + gatesH h0 whh bhh (third 128 (by decide) i))
        * h0 (ix3 0 0 (i 1))

end Cert.GruCell

end
-- ==== Proof.RefIsCell.lean ====
/-
  The reference computes the GRU cell of `GruCell.lean`.

  Its two products are `dot_general`s against the TRANSPOSED weight matrices, so at an index they are the sums over
  the weights' rows; each bias is broadcast along the single row; the three thirds are slices at column offsets
  0, 128 and 256; and the logistic function is spelt out as 1 / (1 + e^(−t)), which is what σ is on the extended reals.
-/
import proofs.«140897_j60687887892609_1_alg».proof.Proof.Gen.ReferenceIdeal.Read
import proofs.«140897_j60687887892609_1_alg».proof.Proof.GruCell
import Idealize.ShloMosaic.Lib.IdealHost

noncomputable section

namespace Cert.ReferenceIdeal.RefValue

open Cert.ReferenceIdeal Cert.ReferenceIdeal.Read Idealize.ShloMosaic Idealize.ShloMosaic.ValueIdx Cert.GruCell

/-- `x @ W_ih.T + b_ih` at column `j 1`: the transposed matrix read at (k, j) is `W_ih[j, k]`. -/
theorem gatesX_eq (x0 : FVec Ideal S1x512 .f32) (x2 : FVec Ideal S384x512 .f32) (x4 : FVec Ideal S384 .f32) (j : S1x384.Idx) :
    val_main_v5 (F := Ideal) x0 x2 x4 j = gatesX x0 x2 x4 j := by
  rw [val_main_v5_apply, val_main_v3_apply, val_main_v4_apply]
  simp only [val_main_v2_apply]
  have e1 : ∀ k : Fin 512, lidx_main_v3 j k = ix2 (j 0) k := fun k => funext fun a => by
    match a with
    | ⟨0, _⟩ => rfl
    | ⟨1, _⟩ => rfl
  have e2 : ∀ k : Fin 512, idx_main_v2 (ridx_main_v3 j k) = ix2 (j 1) k := fun k => funext fun a => by
    match a with
    | ⟨0, _⟩ => rfl
    | ⟨1, _⟩ => rfl
  have e3 : idx_main_v4 j = ix1 (j 1) := funext fun a => by
    match a with
    | ⟨0, _⟩ => rfl
  simp only [e1, e2, e3]
  rfl

/-- `h0[0] @ W_hh.T + b_hh` at column `j 1`: the state is the first of the two slabs of `h0`, re-laid as one row. -/
theorem gatesH_eq (x1 : FVec Ideal S2x1x128 .f32) (x3 : FVec Ideal S384x128 .f32) (x5 : FVec Ideal S384 .f32) (j : S1x384.Idx) :
    val_main_v9 (F := Ideal) x1 x3 x5 j = gatesH x1 x3 x5 j := by
  rw [val_main_v9_apply, val_main_v7_apply, val_main_v8_apply]
  simp only [val_main_v6_apply, val_main_v1_apply, val_main_v0_apply]
  have h0 : (j 0).val < 1 := (j 0).isLt
  have e1 : ∀ k : Fin 128, idx_main_v0 (idx_main_v1 (lidx_main_v7 j k)) = ix3 0 0 k := fun k => funext fun a => by
    have hk : k.val < 128 := k.isLt
    match a with
    | ⟨0, _⟩ => rfl
    | ⟨1, _⟩ => rfl
    | ⟨2, _⟩ => exact Fin.ext (by show ((j 0).val * 128 + k.val) % 128 = k.val; omega)
  have e2 : ∀ k : Fin 128, idx_main_v6 (ridx_main_v7 j k) = ix2 (j 1) k := fun k => funext fun a => by
    match a with
    | ⟨0, _⟩ => rfl
    | ⟨1, _⟩ => rfl
  have e3 : idx_main_v8 j = ix1 (j 1) := funext fun a => by
    match a with
    | ⟨0, _⟩ => rfl
  simp only [e1, e2, e3]
  rfl

/-- The slices' index maps are the thirds. -/
theorem idx_third0 (i : S1x128.Idx) : idx_main_v10 i = third 0 (by decide) i ∧ idx_main_v13 i = third 0 (by decide) i := by
  constructor <;> funext a <;> match a with
    | ⟨0, _⟩ => rfl
    | ⟨1, _⟩ => exact Fin.ext (Nat.zero_add _).symm
theorem idx_third128 (i : S1x128.Idx) : idx_main_v11 i = third 128 (by decide) i ∧ idx_main_v14 i = third 128 (by decide) i := by
  constructor <;> funext a <;> match a with
    | ⟨0, _⟩ => rfl
    | ⟨1, _⟩ => rfl
theorem idx_third256 (i : S1x128.Idx) : idx_main_v12 i = third 256 (by decide) i ∧ idx_main_v15 i = third 256 (by decide) i := by
  constructor <;> funext a <;> match a with
    | ⟨0, _⟩ => rfl
    | ⟨1, _⟩ => rfl

/-- The state as the reference multiplies it into the result: `h0[0, 0, q]`. -/
theorem state_eq (x1 : FVec Ideal S2x1x128 .f32) (i : S1x128.Idx) : val_main_v1 (F := Ideal) x1 i = x1 (ix3 0 0 (i 1)) := by
  rw [val_main_v1_apply, val_main_v0_apply]
  have h0 : (i 0).val < 1 := (i 0).isLt
  have h1 : (i 1).val < 128 := (i 1).isLt
  refine congrArg x1 (funext fun a => ?_)
  match a with
  | ⟨0, _⟩ => rfl
  | ⟨1, _⟩ => rfl
  | ⟨2, _⟩ => exact Fin.ext (by show ((i 0).val * 128 + (i 1).val) % 128 = (i 1).val; omega)

/-- The reference's result is the cell. -/
theorem ref_eq (x0 : FVec Ideal S1x512 .f32) (x1 : FVec Ideal S2x1x128 .f32) (x2 : FVec Ideal S384x512 .f32)
    (x3 : FVec Ideal S384x128 .f32) (x4 x5 : FVec Ideal S384 .f32) :
    val_main_v37 (F := Ideal) x0 x1 x2 x3 x4 x5 = cell x0 x1 x2 x3 x4 x5 := by
  funext i
  simp only [val_main_v37_apply, val_main_v36_apply, val_main_v35_apply, val_main_v34_apply, val_main_v33_apply, val_main_cst_3_apply,
    val_main_v32_apply, val_main_v31_apply, val_main_v30_apply, val_main_v29_apply, val_main_v28_apply, val_main_cst_2_apply,
    val_main_v27_apply, val_main_v26_apply, val_main_cst_1_apply, val_main_v25_apply, val_main_v24_apply, val_main_v23_apply,
    val_main_v22_apply, val_main_v21_apply, val_main_cst_0_apply, val_main_v20_apply, val_main_v19_apply, val_main_cst_apply,
    val_main_v18_apply, val_main_v17_apply, val_main_v16_apply, val_main_v15_apply, val_main_v14_apply, val_main_v13_apply,
    val_main_v12_apply, val_main_v11_apply, val_main_v10_apply, gatesX_eq, gatesH_eq, state_eq,
    (idx_third0 i).1, (idx_third0 i).2, (idx_third128 i).1, (idx_third128 i).2, (idx_third256 i).1, (idx_third256 i).2]
  simp only [Ideal.ofBits_def, Ideal.ofBits_one_f32]
  rfl

end Cert.ReferenceIdeal.RefValue

end
-- ==== Proof.KernelPayload.lean ====
/-
  The kernel body's one stored value is the GRU cell of `GruCell.lean` of the blocks it loads.

  The body multiplies the input row and the state row into the two weight matrices with BOTH operands contracted
  along their second axis (no transpose is materialised), each into a zero accumulator: at column j that is the sum
  over k of the row's entry k times the weight matrix at (j, k). The biases arrive as [1,384] rows (the host re-lays
  the [384] arguments before the call), the state as the [1,128] row the host cuts out of `h0`; the thirds are the three
  slices at column offsets 0, 128 and 256, and the logistic function and tanh are the body's own operations.
-/
import proofs.«140897_j60687887892609_1_alg».proof.Proof.Gen.KernelIdeal.Skeleton
import proofs.«140897_j60687887892609_1_alg».proof.Proof.GruCell
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.ValueIdx Cert.GruCell

/-! ## The two products, at an index -/

theorem lhsX_0 (i : S1x384.Idx) (q : dot_S1x512_S384x512_S1x384_1_1_0_0_n_n.contr.Idx) :
    (dot_S1x512_S384x512_S1x384_1_1_0_0_n_n.lhsIdx i q 0).val = (i 0).val := by
  unfold DotDims.lhsIdx
  rw [dif_neg (show ¬(0 : Fin S1x512.rank) ∈ dot_S1x512_S384x512_S1x384_1_1_0_0_n_n.lhsBatch by decide), dif_pos (show (0 : Fin S1x512.rank) ∈ dot_S1x512_S384x512_S1x384_1_1_0_0_n_n.lhsNonContracting by decide)]
  rfl
theorem lhsX_1 (i : S1x384.Idx) (q : dot_S1x512_S384x512_S1x384_1_1_0_0_n_n.contr.Idx) :
    (dot_S1x512_S384x512_S1x384_1_1_0_0_n_n.lhsIdx i q 1).val = (q ⟨0, by decide⟩).val :=
  dot_S1x512_S384x512_S1x384_1_1_0_0_n_n.lhsIdx_val_of_single rfl i q
theorem rhsX_0 (i : S1x384.Idx) (q : dot_S1x512_S384x512_S1x384_1_1_0_0_n_n.contr.Idx) :
    (dot_S1x512_S384x512_S1x384_1_1_0_0_n_n.rhsIdx i q 0).val = (i 1).val := by
  unfold DotDims.rhsIdx
  rw [dif_neg (show ¬(0 : Fin S384x512.rank) ∈ dot_S1x512_S384x512_S1x384_1_1_0_0_n_n.rhsBatch by decide), dif_pos (show (0 : Fin S384x512.rank) ∈ dot_S1x512_S384x512_S1x384_1_1_0_0_n_n.rhsNonContracting by decide)]
  rfl
theorem rhsX_1 (i : S1x384.Idx) (q : dot_S1x512_S384x512_S1x384_1_1_0_0_n_n.contr.Idx) :
    (dot_S1x512_S384x512_S1x384_1_1_0_0_n_n.rhsIdx i q 1).val = (q ⟨0, by decide⟩).val :=
  dot_S1x512_S384x512_S1x384_1_1_0_0_n_n.rhsIdx_val_of_single rfl i q

/-- The product into a zero accumulator at column `j 1`: both operands are contracted along their second axis, so the
    right one is read at (j, k), a row of the weight matrix. -/
theorem matmulX_apply (l : FVec Ideal S1x512 .f32) (w : FVec Ideal S384x512 .f32) (j : S1x384.Idx) :
    matmul dot_S1x512_S384x512_S1x384_1_1_0_0_n_n none l w (constant S1x384 .f32 0x00000000#32) j = ∑ k : Fin 512, l (ix2 (j 0) k) * w (ix2 (j 1) k) := by
  show FloatOps.matmul dot_S1x512_S384x512_S1x384_1_1_0_0_n_n none l w (constant S1x384 .f32 0x00000000#32) j = _
  rw [Ideal.matmul_constant_zero_apply, ← Equiv.sum_comp (ValueIdx.contrEquiv1 dot_S1x512_S384x512_S1x384_1_1_0_0_n_n 512 rfl rfl).symm]
  refine Finset.sum_congr rfl fun k _ => ?_
  have hk := ValueIdx.contrEquiv1_symm_val dot_S1x512_S384x512_S1x384_1_1_0_0_n_n 512 rfl rfl k
  have el : dot_S1x512_S384x512_S1x384_1_1_0_0_n_n.lhsIdx j ((ValueIdx.contrEquiv1 dot_S1x512_S384x512_S1x384_1_1_0_0_n_n 512 rfl rfl).symm k) = ix2 (j 0) k := funext fun a => Fin.ext (by
    match a with
    | ⟨0, _⟩ => exact lhsX_0 _ _
    | ⟨1, _⟩ => exact (lhsX_1 _ _).trans hk)
  have er : dot_S1x512_S384x512_S1x384_1_1_0_0_n_n.rhsIdx j ((ValueIdx.contrEquiv1 dot_S1x512_S384x512_S1x384_1_1_0_0_n_n 512 rfl rfl).symm k) = ix2 (j 1) k := funext fun a => Fin.ext (by
    match a with
    | ⟨0, _⟩ => exact rhsX_0 _ _
    | ⟨1, _⟩ => exact (rhsX_1 _ _).trans hk)
  rw [el, er]
  rfl

theorem lhsH_0 (i : S1x384.Idx) (q : dot_S1x128_S384x128_S1x384_1_1_0_0_n_n.contr.Idx) :
    (dot_S1x128_S384x128_S1x384_1_1_0_0_n_n.lhsIdx i q 0).val = (i 0).val := by
  unfold DotDims.lhsIdx
  rw [dif_neg (show ¬(0 : Fin S1x128.rank) ∈ dot_S1x128_S384x128_S1x384_1_1_0_0_n_n.lhsBatch by decide), dif_pos (show (0 : Fin S1x128.rank) ∈ dot_S1x128_S384x128_S1x384_1_1_0_0_n_n.lhsNonContracting by decide)]
  rfl
theorem lhsH_1 (i : S1x384.Idx) (q : dot_S1x128_S384x128_S1x384_1_1_0_0_n_n.contr.Idx) :
    (dot_S1x128_S384x128_S1x384_1_1_0_0_n_n.lhsIdx i q 1).val = (q ⟨0, by decide⟩).val :=
  dot_S1x128_S384x128_S1x384_1_1_0_0_n_n.lhsIdx_val_of_single rfl i q
theorem rhsH_0 (i : S1x384.Idx) (q : dot_S1x128_S384x128_S1x384_1_1_0_0_n_n.contr.Idx) :
    (dot_S1x128_S384x128_S1x384_1_1_0_0_n_n.rhsIdx i q 0).val = (i 1).val := by
  unfold DotDims.rhsIdx
  rw [dif_neg (show ¬(0 : Fin S384x128.rank) ∈ dot_S1x128_S384x128_S1x384_1_1_0_0_n_n.rhsBatch by decide), dif_pos (show (0 : Fin S384x128.rank) ∈ dot_S1x128_S384x128_S1x384_1_1_0_0_n_n.rhsNonContracting by decide)]
  rfl
theorem rhsH_1 (i : S1x384.Idx) (q : dot_S1x128_S384x128_S1x384_1_1_0_0_n_n.contr.Idx) :
    (dot_S1x128_S384x128_S1x384_1_1_0_0_n_n.rhsIdx i q 1).val = (q ⟨0, by decide⟩).val :=
  dot_S1x128_S384x128_S1x384_1_1_0_0_n_n.rhsIdx_val_of_single rfl i q

/-- The product into a zero accumulator at column `j 1`: both operands are contracted along their second axis, so the
    right one is read at (j, k), a row of the weight matrix. -/
theorem matmulH_apply (l : FVec Ideal S1x128 .f32) (w : FVec Ideal S384x128 .f32) (j : S1x384.Idx) :
    matmul dot_S1x128_S384x128_S1x384_1_1_0_0_n_n none l w (constant S1x384 .f32 0x00000000#32) j = ∑ k : Fin 128, l (ix2 (j 0) k) * w (ix2 (j 1) k) := by
  show FloatOps.matmul dot_S1x128_S384x128_S1x384_1_1_0_0_n_n none l w (constant S1x384 .f32 0x00000000#32) j = _
  rw [Ideal.matmul_constant_zero_apply, ← Equiv.sum_comp (ValueIdx.contrEquiv1 dot_S1x128_S384x128_S1x384_1_1_0_0_n_n 128 rfl rfl).symm]
  refine Finset.sum_congr rfl fun k _ => ?_
  have hk := ValueIdx.contrEquiv1_symm_val dot_S1x128_S384x128_S1x384_1_1_0_0_n_n 128 rfl rfl k
  have el : dot_S1x128_S384x128_S1x384_1_1_0_0_n_n.lhsIdx j ((ValueIdx.contrEquiv1 dot_S1x128_S384x128_S1x384_1_1_0_0_n_n 128 rfl rfl).symm k) = ix2 (j 0) k := funext fun a => Fin.ext (by
    match a with
    | ⟨0, _⟩ => exact lhsH_0 _ _
    | ⟨1, _⟩ => exact (lhsH_1 _ _).trans hk)
  have er : dot_S1x128_S384x128_S1x384_1_1_0_0_n_n.rhsIdx j ((ValueIdx.contrEquiv1 dot_S1x128_S384x128_S1x384_1_1_0_0_n_n 128 rfl rfl).symm k) = ix2 (j 1) k := funext fun a => Fin.ext (by
    match a with
    | ⟨0, _⟩ => exact rhsH_0 _ _
    | ⟨1, _⟩ => exact (rhsH_1 _ _).trans hk)
  rw [el, er]
  rfl

/-! ## The operands as the host hands them over -/

/-- A [384] bias re-laid as one row of 384 reads the bias at the column. -/
theorem bias_row (b : FVec Ideal S384 .f32) (j : S1x384.Idx) :
    shapeCast S1x384 b shapeCasts_S384_S1x384 j = b (ix1 (j 1)) := by
  have h0 : (j 0).val < 1 := (j 0).isLt
  refine shapeCast_apply b shapeCasts_S384_S1x384 j (ix1 (j 1)) ?_
  rw [Shape.rowMajor_val_one, Shape.rowMajor_val_two]
  show (j 1).val = (j 0).val * 384 + (j 1).val
  omega

/-- The forward direction's state as the host cuts it out of `h0` and re-lays it as one row: `h0[0, 0, q]` at column q. -/
theorem state_row (h0 : FVec Ideal S2x1x128 .f32) (i : S1x128.Idx) :
    shapeCast S1x128 (extractStridedSlice S1x1x128 ![0, 0, 0] h0 slices_S2x1x128_S1x1x128_0_0_0) shapeCasts_S1x1x128_S1x128 i
      = h0 (ix3 0 0 (i 1)) := by
  have hi0 : (i 0).val < 1 := (i 0).isLt
  have hi1 : (i 1).val < 128 := (i 1).isLt
  rw [shapeCast_apply _ shapeCasts_S1x1x128_S1x128 i (ix3 0 0 (i 1)) (by
    rw [Shape.rowMajor_val_three, Shape.rowMajor_val_two]
    show (0 * 1 + 0) * 128 + (i 1).val = (i 0).val * 128 + (i 1).val
    omega)]
  exact extractStridedSlice_apply ![0, 0, 0] h0 slices_S2x1x128_S1x1x128_0_0_0 (ix3 0 0 (i 1)) (ix3 0 0 (i 1)) (fun a => by
    match a with
    | ⟨0, _⟩ => rfl
    | ⟨1, _⟩ => rfl
    | ⟨2, _⟩ => exact (Nat.zero_add _).symm)

/-! ## The pre-activations and their thirds -/

/-- The input side: product plus the bias row. -/
theorem gatesX_eq (x : FVec Ideal S1x512 .f32) (wih : FVec Ideal S384x512 .f32) (bih : FVec Ideal S384 .f32) (j : S1x384.Idx) :
    addf (matmul dot_S1x512_S384x512_S1x384_1_1_0_0_n_n none x wih (constant S1x384 .f32 0x00000000#32))
      (shapeCast S1x384 (shapeCast S1x384 bih shapeCasts_S384_S1x384) shapeCasts_S1x384_S1x384) j = gatesX x wih bih j := by
  rw [shapeCast_self]
  show matmul dot_S1x512_S384x512_S1x384_1_1_0_0_n_n none x wih (constant S1x384 .f32 0x00000000#32) j + shapeCast S1x384 bih shapeCasts_S384_S1x384 j = _
  rw [matmulX_apply, bias_row]
  rfl

/-- The hidden side: the state row, the product, the bias row. -/
theorem gatesH_eq (h0 : FVec Ideal S2x1x128 .f32) (whh : FVec Ideal S384x128 .f32) (bhh : FVec Ideal S384 .f32) (j : S1x384.Idx) :
    addf (matmul dot_S1x128_S384x128_S1x384_1_1_0_0_n_n none
        (shapeCast S1x128 (shapeCast S1x128 (extractStridedSlice S1x1x128 ![0, 0, 0] h0 slices_S2x1x128_S1x1x128_0_0_0) shapeCasts_S1x1x128_S1x128) shapeCasts_S1x128_S1x128)
        whh (constant S1x384 .f32 0x00000000#32))
      (shapeCast S1x384 (shapeCast S1x384 bhh shapeCasts_S384_S1x384) shapeCasts_S1x384_S1x384) j = gatesH h0 whh bhh j := by
  rw [shapeCast_self, shapeCast_self]
  show matmul dot_S1x128_S384x128_S1x384_1_1_0_0_n_n none _ whh (constant S1x384 .f32 0x00000000#32) j + shapeCast S1x384 bhh shapeCasts_S384_S1x384 j = _
  rw [matmulH_apply, bias_row]
  simp only [state_row]
  rfl

/-- A slice of 128 columns at offset `o` reads the third that starts at `o`. -/
theorem third0_apply (y : FVec Ideal S1x384 .f32) (i : S1x128.Idx) :
    extractStridedSlice S1x128 ![0, 0] y slices_S1x384_o0_0_S1x128 i = y (third 0 (by decide) i) :=
  extractStridedSlice_apply ![0, 0] y slices_S1x384_o0_0_S1x128 i _ (fun a => by
    match a with
    | ⟨0, _⟩ => exact (Nat.zero_add _).symm
    | ⟨1, _⟩ => rfl)
theorem third128_apply (y : FVec Ideal S1x384 .f32) (i : S1x128.Idx) :
    extractStridedSlice S1x128 ![0, 128] y slices_S1x384_o0_128_S1x128 i = y (third 128 (by decide) i) :=
  extractStridedSlice_apply ![0, 128] y slices_S1x384_o0_128_S1x128 i _ (fun a => by
    match a with
    | ⟨0, _⟩ => exact (Nat.zero_add _).symm
    | ⟨1, _⟩ => rfl)
theorem third256_apply (y : FVec Ideal S1x384 .f32) (i : S1x128.Idx) :
    extractStridedSlice S1x128 ![0, 256] y slices_S1x384_o0_256_S1x128 i = y (third 256 (by decide) i) :=
  extractStridedSlice_apply ![0, 256] y slices_S1x384_o0_256_S1x128 i _ (fun a => by
    match a with
    | ⟨0, _⟩ => exact (Nat.zero_add _).symm
    | ⟨1, _⟩ => rfl)

/-! ## The stored value -/

/-- The body's stored value, of the blocks as the host hands them over, is the cell of the argument arrays. -/
theorem payload_eq (x : FVec Ideal S1x512 .f32) (h0 : FVec Ideal S2x1x128 .f32) (wih : FVec Ideal S384x512 .f32)
    (whh : FVec Ideal S384x128 .f32) (bih bhh : FVec Ideal S384 .f32) :
    k0_pay1 (F := Ideal) x (shapeCast S1x128 (extractStridedSlice S1x1x128 ![0, 0, 0] h0 slices_S2x1x128_S1x1x128_0_0_0) shapeCasts_S1x1x128_S1x128)
      wih whh (shapeCast S1x384 bih shapeCasts_S384_S1x384) (shapeCast S1x384 bhh shapeCasts_S384_S1x384)
      = cell x h0 wih whh bih bhh := by
  funext i
  unfold k0_pay1
  simp only [addf_apply, mulf_apply, subf_apply, broadcast_apply]
  show (Ideal.ofBits .f32 0x3F800000#32 - Ideal.logistic (_ + _)) * Ideal.tanh (_ + Ideal.logistic (_ + _) * _) + Ideal.logistic (_ + _) * _ = _
  simp only [third0_apply, third128_apply, third256_apply, gatesX_eq, gatesH_eq, Ideal.ofBits_one_f32]
  rw [shapeCast_self, state_row]
  rfl

end Cert.KernelIdeal.Hand

end
-- ==== Proof.KernelArray.lean ====
/-
  The kernel's result array after the run is the GRU cell of `GruCell.lean` of the argument arrays.

  The grid has ONE point and every window's block is its whole array (block index (0, 0), block size the array's), so
  the one point's input blocks are the arrays as the call finds them, and the one block it writes back is the whole
  result array. Of the six operands of the call, three are arguments of the program as they are (the input row and the
  two weight matrices) and three are made by the host just before the call: the state row cut out of `h0` and
  re-laid, and the two biases re-laid as rows.
-/
import proofs.«140897_j60687887892609_1_alg».proof.Proof.Gen.KernelIdeal.Value
import proofs.«140897_j60687887892609_1_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value

section AnyF

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## The one point's blocks are the whole arrays -/

theorem block0 (c : Dev nD) (t : Fin cfg0.N) : (iblk m c 0 t : Vec F S1x512 .f32) = V m c main_arg0 := by
  unfold iblk
  have hz' : (fun a => win0_0.index t a * main_arg0.ty.shape.size a) = fun _ => 0 := funext fun a => by fin_cases a <;> rfl
  exact Memref.read_access_unit_zero (Elt F) main_arg0 hz' (fun a => by rw [congrFun hz' a]; simp) (V m c main_arg0)

theorem block1 (c : Dev nD) (t : Fin cfg0.N) : (iblk m c 1 t : Vec F S1x128 .f32) = V m c main_v1 := by
  unfold iblk
  have hz' : (fun a => win0_1.index t a * main_v1.ty.shape.size a) = fun _ => 0 := funext fun a => by fin_cases a <;> rfl
  exact Memref.read_access_unit_zero (Elt F) main_v1 hz' (fun a => by rw [congrFun hz' a]; simp) (V m c main_v1)

theorem block2 (c : Dev nD) (t : Fin cfg0.N) : (iblk m c 2 t : Vec F S384x512 .f32) = V m c main_arg2 := by
  unfold iblk
  have hz' : (fun a => win0_2.index t a * main_arg2.ty.shape.size a) = fun _ => 0 := funext fun a => by fin_cases a <;> rfl
  exact Memref.read_access_unit_zero (Elt F) main_arg2 hz' (fun a => by rw [congrFun hz' a]; simp) (V m c main_arg2)

theorem block3 (c : Dev nD) (t : Fin cfg0.N) : (iblk m c 3 t : Vec F S384x128 .f32) = V m c main_arg3 := by
  unfold iblk
  have hz' : (fun a => win0_3.index t a * main_arg3.ty.shape.size a) = fun _ => 0 := funext fun a => by fin_cases a <;> rfl
  exact Memref.read_access_unit_zero (Elt F) main_arg3 hz' (fun a => by rw [congrFun hz' a]; simp) (V m c main_arg3)

theorem block4 (c : Dev nD) (t : Fin cfg0.N) : (iblk m c 4 t : Vec F S1x384 .f32) = V m c main_v2 := by
  unfold iblk
  have hz' : (fun a => win0_4.index t a * main_v2.ty.shape.size a) = fun _ => 0 := funext fun a => by fin_cases a <;> rfl
  exact Memref.read_access_unit_zero (Elt F) main_v2 hz' (fun a => by rw [congrFun hz' a]; simp) (V m c main_v2)

theorem block5 (c : Dev nD) (t : Fin cfg0.N) : (iblk m c 5 t : Vec F S1x384 .f32) = V m c main_v3 := by
  unfold iblk
  have hz' : (fun a => win0_5.index t a * main_v3.ty.shape.size a) = fun _ => 0 := funext fun a => by fin_cases a <;> rfl
  exact Memref.read_access_unit_zero (Elt F) main_v3 hz' (fun a => by rw [congrFun hz' a]; simp) (V m c main_v3)

/-! ## The operands the host makes before the call -/

/-- The state row: the first slab of `h0`, re-laid as [1,128]. -/
theorem state_operand (c : Dev nD) : (V m c main_v1 : S1x128.Idx → Elt F .f32)
    = shapeCast S1x128 (extractStridedSlice S1x1x128 ![0, 0, 0] (m ((c : Thread nD τ).loc main_arg1)) slices_S2x1x128_S1x1x128_0_0_0) shapeCasts_S1x1x128_S1x128 := by
  dsimp only [Gen.V, Gen.hostOps0]; after_results; rfl

/-- The input side's bias, re-laid as [1,384]. -/
theorem biasX_operand (c : Dev nD) : (V m c main_v2 : S1x384.Idx → Elt F .f32)
    = shapeCast S1x384 (m ((c : Thread nD τ).loc main_arg4)) shapeCasts_S384_S1x384 := by
  dsimp only [Gen.V, Gen.hostOps0]; after_results; rfl

/-- The hidden side's bias, re-laid as [1,384]. -/
theorem biasH_operand (c : Dev nD) : (V m c main_v3 : S1x384.Idx → Elt F .f32)
    = shapeCast S1x384 (m ((c : Thread nD τ).loc main_arg5)) shapeCasts_S384_S1x384 := by
  dsimp only [Gen.V, Gen.hostOps0]; after_results; rfl

/-! ## The result array -/

/-- What the result array ends holding: the body's stored value of the six operands. -/
abbrev result (c : Dev nD) : Buf (Elt F) ((c : Thread nD τ).loc main_v4) :=
  k0_pay1 (V m c main_arg0) (V m c main_v1) (V m c main_arg2) (V m c main_arg3) (V m c main_v2) (V m c main_v3)

/-- The one point writes back the whole of `result`: its one store covers the staging buffer, and the block it is
    flushed to is the whole array. -/
theorem flushed_eq (c : Dev nD) (t : Fin cfg0.N) (hf : (cfg0.win 6).flush t = true) :
    (dats m 0 c).flushed 6 t = ((cfg0.win 6).blk t).view.read (Elt F) (result m c) := by
  rw [flushed6]
  unfold out0_6
  rw [View.canon_unit_zero hz]
  simp only [View.ld_unit_zero (S := S1x512) hz, View.ld_unit_zero (S := S1x128) hz, View.ld_unit_zero (S := S384x512) hz,
    View.ld_unit_zero (S := S384x128) hz, View.ld_unit_zero (S := S1x384) hz]
  rw [block0, block1, block2, block3, block4, block5]
  have hz' : (fun a => win0_6.index t a * main_v4.ty.shape.size a) = fun _ => 0 := funext fun a => by fin_cases a <;> rfl
  exact (Memref.read_access_unit_zero (Elt F) main_v4 hz' (fun a => by rw [congrFun hz' a]; simp) (result m c)).symm

/-- So the result array ends holding `result`. -/
theorem final (c : Dev nD) : (dats m 0 c).arrAt 6 cfg0.N = result m c :=
  (dats m 0 c).arrAt_eq_of_cover 6 (result m c) (flushed_eq m c) fun i =>
    ⟨t0_0, flush0_6 t0_0, by
      show i ∈ ((View.whole main_v4).slice (win0_6.rect t0_0)).set
      rw [View.set_slice_whole, Rect.mem_set_unit]
      intro a
      have h0 : (i 0 : Nat) < 1 := (i 0).isLt
      have h1 : (i 1 : Nat) < 128 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 1 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 128 from by decide +kernel]; omega⟩

end AnyF

/-! ## At the ideal instance -/

variable (m : (ℓ : Loc nD τ sig) → Buf (Elt Ideal) ℓ) (ρ : Dev nD → PrngReg)

/-- The result array is the cell of the six argument arrays. -/
theorem result_eq (c : Dev nD) : result m c = Cert.GruCell.cell (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  unfold result
  rw [state_operand, biasX_operand, biasH_operand, V_main_arg0, V_main_arg2, V_main_arg3]
  exact payload_eq _ _ _ _ _ _

/-- The run, read: the result array at the cell of the arguments, the arguments unchanged. -/
theorem run : θ_run defs (onTc (τ := τ) (main (F := Ideal))) ⟨m, fun _ => 0, ρ⟩ fun r => ∀ c : Dev nD,
      r.2.mem ((c : Thread nD τ).loc main_v4) = Cert.GruCell.cell (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((final m c).trans (result_eq m c)), (h c).2⟩)
    (run_blocks m ρ)

end Cert.KernelIdeal.Hand

end
-- ==== Proof.lean ====
/-
  One step of a GRU cell: a one-point Pallas kernel against its jnp reference, equal on the extended reals.

  Both programs compute, from the input row x, the forward direction's state h = h0[0], the weight matrices W_ih, W_hh
  and the biases b_ih, b_hh,

    gx = x · W_ihᵀ + b_ih,   gh = h · W_hhᵀ + b_hh   (384 columns each, three thirds of 128),
    r = σ (gx₀ + gh₀),   z = σ (gx₁ + gh₁),   n = tanh (gx₂ + r · gh₂),   out = (1 − z) · n + z · h.

  The kernel contracts each row against the ROWS of a weight matrix on the matrix unit, into a zero accumulator; the
  reference transposes the matrix and takes the host's product: at an index both are the same sum over k of
  row[k] · W[j, k]. The kernel's logistic operation is, on the extended reals, the expression 1 / (1 + e^(−t)) the
  reference spells out, and tanh is one function on both sides. No algebraic law is needed to join the two sides, so the
  precondition (finite inputs) is never opened. `GruCell.lean` states the cell index by index; `RefIsCell.lean` shows the
  reference's result is it, `KernelPayload.lean` that the kernel body's stored value is it, and `KernelArray.lean` that the
  kernel's result array, after its one grid point has written its one whole-array block back, holds that value.
  The idealization rewrote nothing in the kernel, so its preservation claim is trivial; the frames of the two kernel
  programs are their generated frame runs, the reference's frame is its generated run with the result dropped.
-/
import proofs.«140897_j60687887892609_1_alg».proof.Defs
import proofs.«140897_j60687887892609_1_alg».proof.Proof.Gen.Kernel
import proofs.«140897_j60687887892609_1_alg».proof.Proof.Gen.Kernel.Skeleton
import proofs.«140897_j60687887892609_1_alg».proof.Proof.Gen.Kernel.Launch
import proofs.«140897_j60687887892609_1_alg».proof.Proof.Gen.Kernel.Points
import proofs.«140897_j60687887892609_1_alg».proof.Proof.Gen.Kernel.Frame
import proofs.«140897_j60687887892609_1_alg».proof.Proof.Gen.KernelIdeal
import proofs.«140897_j60687887892609_1_alg».proof.Proof.Gen.KernelIdeal.Skeleton
import proofs.«140897_j60687887892609_1_alg».proof.Proof.Gen.KernelIdeal.Launch
import proofs.«140897_j60687887892609_1_alg».proof.Proof.Gen.KernelIdeal.Points
import proofs.«140897_j60687887892609_1_alg».proof.Proof.Gen.KernelIdeal.Frame
import proofs.«140897_j60687887892609_1_alg».proof.Proof.Gen.ReferenceIdeal
import proofs.«140897_j60687887892609_1_alg».proof.Proof.Gen.Pre_finite_inputs
import proofs.«140897_j60687887892609_1_alg».proof.Proof.Gen.KernelIdeal.Value
import proofs.«140897_j60687887892609_1_alg».proof.Proof.Gen.ReferenceIdeal.Run
import proofs.«140897_j60687887892609_1_alg».proof.Proof.Gen.ReferenceIdeal.Read
import proofs.«140897_j60687887892609_1_alg».proof.Proof.GruCell
import proofs.«140897_j60687887892609_1_alg».proof.Proof.RefIsCell
import proofs.«140897_j60687887892609_1_alg».proof.Proof.KernelPayload
import proofs.«140897_j60687887892609_1_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's result both hold the
    GRU cell of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
